-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x256 : Shape := ⟨2, ![128, 256]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S40000x128 .f32) (main_arg1 : IVec S2x640000 32) (main_arg2 : FVec F S640000 .f32) (main_arg3 : FVec F S128x256 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x256 : Shape := ⟨2, ![128, 256]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S128x128 : Shape := ⟨2, ![128, 128]⟩
abbrev S1x128 : Shape := ⟨2, ![1, 128]⟩
abbrev S5000x128 : Shape := ⟨2, ![5000, 128]⟩

abbrev nBuf : Space → Nat
  | .hbm => 49
  | .vmem => 9
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x256, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000, .f32⟩
  | .hbm, ⟨20, _⟩ => ⟨S640000x1, .i32⟩
  | .hbm, ⟨21, _⟩ => ⟨S40000, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000, .f32⟩
  | .hbm, ⟨31, _⟩ => ⟨S_, .f32⟩
  | .hbm, ⟨32, _⟩ => ⟨S_, .f32⟩
  | .hbm, ⟨33, _⟩ => ⟨S640000, .f32⟩
  | .hbm, ⟨34, _⟩ => ⟨S640000, .f32⟩
  | .hbm, ⟨35, _⟩ => ⟨S640000, .f32⟩
  | .hbm, ⟨36, _⟩ => ⟨S640000x1, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S40000x128, .f32⟩
  | .hbm, ⟨41, _⟩ => ⟨S640000x1, .i32⟩
  | .hbm, ⟨42, _⟩ => ⟨S40000x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000 : S_.BroadcastsInDim S40000 (![] : Fin 0 → Fin S40000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x256 : Shape := ⟨2, ![128, 256]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x256 : Shape := ⟨2, ![40000, 256]⟩
abbrev S256x128 : Shape := ⟨2, ![256, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x256, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000, .f32⟩
  | .hbm, ⟨20, _⟩ => ⟨S640000x1, .i32⟩
  | .hbm, ⟨21, _⟩ => ⟨S40000, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000, .f32⟩
  | .hbm, ⟨31, _⟩ => ⟨S_, .f32⟩
  | .hbm, ⟨32, _⟩ => ⟨S_, .f32⟩
  | .hbm, ⟨33, _⟩ => ⟨S640000, .f32⟩
  | .hbm, ⟨34, _⟩ => ⟨S640000, .f32⟩
  | .hbm, ⟨35, _⟩ => ⟨S640000, .f32⟩
  | .hbm, ⟨36, _⟩ => ⟨S640000x1, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S40000x128, .f32⟩
  | .hbm, ⟨41, _⟩ => ⟨S640000x1, .i32⟩
  | .hbm, ⟨42, _⟩ => ⟨S40000x128, .f32⟩
  | .hbm, ⟨43, _⟩ => ⟨S40000x256, .f32⟩
  | .hbm, ⟨44, _⟩ => ⟨S256x128, .f32⟩
  | .hbm, ⟨45, _⟩ => ⟨S40000x128, .f32⟩
  | .hbm, ⟨46, _⟩ => ⟨S1x128, .f32⟩
  | .hbm, ⟨47, _⟩ => ⟨S40000x128, .f32⟩
  | .hbm, ⟨48, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000 : S_.BroadcastsInDim S40000 (![] : Fin 0 → Fin S40000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  concatenates_S40000x128_S40000x128_S40000x256_d1 : Shape.Concatenates [S40000x128, S40000x128] S40000x256 1
  transposes_S128x256_S256x128_1_0 : S128x256.Transposes [1, 0] S256x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  scatter_S40000x128_S640000x1_S640000x128_1_0_0_1_wf : ScatterDims.WF S40000x128 S640000x1 S640000x128 [1] [0] [0] 1
  dot_S40000x256_S256x128_S40000x128_1_0_0_1_n_n_wf : DotDims.WF S40000x256 S256x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.SageLinear.lean ====
/-
  The weighted-SAGE projection as ONE function of its four arrays, index by index, and the one law the
  certificate needs.

  For node features `x` and aggregated neighbour features `agg` (both 40000 × 128), the weight `W` (128 × 256) and the
  bias `b` (128), the layer's output at row `r`, column `q` is

      (∑ k < 128, x[r, k] · W[q, k]  +  ∑ k < 128, agg[r, k] · W[q, 128 + k])  +  b[q]

  on the extended reals: the self half of the weight against the node's own features, the neighbour half against the
  aggregate. The tiled kernel computes exactly this arrangement (two products into zero accumulators, added); the
  reference contracts the concatenation `[x | agg]` (40000 × 256) against all of `W` at once. The two agree because a sum
  over 256 indices is the sum over the first 128 plus the sum over the last 128 — a regrouping of a finite sum in a
  commutative monoid, true of the extended reals with no finiteness assumption (no product is moved across a sum).
-/
import Idealize.ShloMosaic.PureOps.Ideal
import Idealize.ShloMosaic.Lib.ValueIdx
import Mathlib.Algebra.BigOperators.Fin

noncomputable section

namespace Cert.SageLinear

open Idealize.ShloMosaic Idealize.ShloMosaic.ValueIdx

/-- A sum over 256 indices is the sum over the first 128 plus the sum over the last 128. -/
theorem sum_halves (f : Fin 256 → EReal) :
    ∑ k : Fin 256, f k
      = ∑ k : Fin 128, f ⟨k.val, Nat.lt_trans k.isLt (by decide)⟩ + ∑ k : Fin 128, f ⟨128 + k.val, by have := k.isLt; omega⟩ :=
  Fin.sum_univ_add (M := EReal) (a := 128) (b := 128) f

/-- Row `r`, column `q` of the layer's output: the self half of `W` against `x`'s row, the neighbour half against `agg`'s
    row, and the bias. -/
def entry (x agg : (⟨2, ![40000, 128]⟩ : Shape).Idx → EReal) (W : (⟨2, ![128, 256]⟩ : Shape).Idx → EReal)
    (b : (⟨1, ![128]⟩ : Shape).Idx → EReal) (r : Fin 40000) (q : Fin 128) : EReal :=
  (∑ k : Fin 128, x (ix2 r k) * W (ix2 q ⟨k.val, Nat.lt_trans k.isLt (by decide)⟩)
    + ∑ k : Fin 128, agg (ix2 r k) * W (ix2 q ⟨128 + k.val, by have := k.isLt; omega⟩))
  + b (ix1 q)

/-- The layer's output array. -/
def out (x agg : (⟨2, ![40000, 128]⟩ : Shape).Idx → EReal) (W : (⟨2, ![128, 256]⟩ : Shape).Idx → EReal)
    (b : (⟨1, ![128]⟩ : Shape).Idx → EReal) : (⟨2, ![40000, 128]⟩ : Shape).Idx → EReal :=
  fun i => entry x agg W b ⟨(i 0).val, (i 0).isLt⟩ ⟨(i 1).val, (i 1).isLt⟩

theorem out_apply (x agg : (⟨2, ![40000, 128]⟩ : Shape).Idx → EReal) (W : (⟨2, ![128, 256]⟩ : Shape).Idx → EReal)
    (b : (⟨1, ![128]⟩ : Shape).Idx → EReal) (r : Fin 40000) (q : Fin 128) :
    out x agg W b (ix2 r q) = entry x agg W b r q := rfl

-- from here on the array is read only through `out_apply`
attribute [irreducible] out

/-- The same entry with the two halves of the contraction joined: one sum over the 256 columns of `W`'s row `q`, whose
    `k`-th factor is `x[r, k]` below 128 and `agg[r, k - 128]` from 128 on — the reference's arrangement. -/
theorem entry_eq_joined (x agg : (⟨2, ![40000, 128]⟩ : Shape).Idx → EReal) (W : (⟨2, ![128, 256]⟩ : Shape).Idx → EReal)
    (b : (⟨1, ![128]⟩ : Shape).Idx → EReal) (r : Fin 40000) (q : Fin 128)
    (h : Fin 256 → EReal)
    (hlo : ∀ k : Fin 128, h ⟨k.val, Nat.lt_trans k.isLt (by decide)⟩ = x (ix2 r k))
    (hhi : ∀ k : Fin 128, h ⟨128 + k.val, by have := k.isLt; omega⟩ = agg (ix2 r k)) :
    (∑ k : Fin 256, h k * W (ix2 q k)) + b (ix1 q) = entry x agg W b r q := by
  unfold entry
  rw [sum_halves]
  simp only [hlo, hhi]

end Cert.SageLinear

end
-- ==== Proof.RefValue.lean ====
/-
  The reference's result is the layer's output function of its own aggregate.

  The reference builds `agg` (its value `%28`) by a gather, two scatter-adds, a clip and a quotient, then joins `[x | agg]`
  along the feature axis, contracts the 256 joined features against `Wᵀ` in one product and adds the bias row. Here only
  those last six operations are opened; `agg` stays the closed term `val_main_v28`. Read at an index, the joined array is
  `x` in its first 128 columns and `agg`, shifted by 128, in its last 128; the transposed weight at `(k, q)` is `W[q, k]`;
  so the one product over 256 features is the sum whose two halves are the self and the neighbour products.
-/
import proofs.«107154_j16492674417005_1_alg».proof.Proof.Gen.ReferenceIdeal.Read
import proofs.«107154_j16492674417005_1_alg».proof.Proof.SageLinear

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The joined array `[x | a]` in a column below 128 is `x` there. -/
theorem joined_lo (x a : FVec Ideal S40000x128 .f32) (r : Fin 40000) (k : Fin 128) :
    concatenate S40000x256 1 [⟨S40000x128, x⟩, ⟨S40000x128, a⟩] concatenates_S40000x128_S40000x128_S40000x256_d1
        (ix2 r (⟨k.val, Nat.lt_trans k.isLt (by decide)⟩ : Fin 256))
      = x (ix2 r k) :=
  concatenate_pair_apply_left (t := S40000x256) (1 : Fin 2) x a concatenates_S40000x128_S40000x128_S40000x256_d1
    (ix2 r (⟨k.val, Nat.lt_trans k.isLt (by decide)⟩ : Fin 256)) rfl (ix2 r k)
    (fun b => match b with
      | ⟨0, _⟩ => rfl
      | ⟨1, _⟩ => rfl)

/-- The joined array `[x | a]` in column `128 + k` is `a` in column `k`. -/
theorem joined_hi (x a : FVec Ideal S40000x128 .f32) (r : Fin 40000) (k : Fin 128) :
    concatenate S40000x256 1 [⟨S40000x128, x⟩, ⟨S40000x128, a⟩] concatenates_S40000x128_S40000x128_S40000x256_d1
        (ix2 r (⟨128 + k.val, by have := k.isLt; omega⟩ : Fin 256))
      = a (ix2 r k) :=
  concatenate_pair_apply_right (t := S40000x256) (1 : Fin 2) x a concatenates_S40000x128_S40000x128_S40000x256_d1
    (ix2 r (⟨128 + k.val, by have := k.isLt; omega⟩ : Fin 256)) rfl rfl (ix2 r k)
    (fun b => match b with
      | ⟨0, _⟩ => fun _ => rfl
      | ⟨1, _⟩ => fun h => absurd rfl h)
    (by show k.val + 128 = 128 + k.val; omega)

/-- The reference's result array is the layer's output of `x`, its own aggregate, `W` and `b`. -/
theorem result_eq (x0 : (⟨S40000x128, .f32⟩ : BufTy).Contents (Elt Ideal)) (x1 : (⟨S2x640000, .i32⟩ : BufTy).Contents (Elt Ideal))
    (x2 : (⟨S640000, .f32⟩ : BufTy).Contents (Elt Ideal)) (x3 : (⟨S128x256, .f32⟩ : BufTy).Contents (Elt Ideal))
    (x4 : (⟨S128, .f32⟩ : BufTy).Contents (Elt Ideal)) :
    val_main_v34 (F := Ideal) x0 x1 x2 x3 x4 = Cert.SageLinear.out x0 (val_main_v28 (F := Ideal) x0 x1 x2) x3 x4 := by
  funext i
  obtain ⟨r, q, rfl⟩ : ∃ (r : Fin 40000) (q : Fin 128), i = ix2 r q := ⟨i 0, i 1, eq_ix2 i⟩
  rw [val_main_v34_apply, val_main_v31_apply, val_main_v33_apply, val_main_v32_apply, Cert.SageLinear.out_apply]
  refine Eq.trans ?_ (Cert.SageLinear.entry_eq_joined x0 (val_main_v28 (F := Ideal) x0 x1 x2) x3 x4 r q
    (fun k => val_main_v29 (F := Ideal) x0 x1 x2 (ix2 r k))
    (fun k => by unfold val_main_v29; exact joined_lo x0 _ r k)
    (fun k => by unfold val_main_v29; exact joined_hi x0 _ r k))
  show (∑ k : Fin 256, val_main_v29 (F := Ideal) x0 x1 x2 (lidx_main_v31 (ix2 r q) k) * val_main_v30 (F := Ideal) x3 (ridx_main_v31 (ix2 r q) k))
      + x4 (idx_main_v32 (idx_main_v33 (ix2 r q))) = _
  have el : ∀ k : Fin 256, lidx_main_v31 (ix2 r q) k = ix2 r k := fun k => funext fun a => match a with
    | ⟨0, _⟩ => rfl
    | ⟨1, _⟩ => rfl
  have er : ∀ k : Fin 256, idx_main_v30 (ridx_main_v31 (ix2 r q) k) = ix2 q k := fun k => funext fun a => match a with
    | ⟨0, _⟩ => rfl
    | ⟨1, _⟩ => rfl
  have eb : idx_main_v32 (idx_main_v33 (ix2 r q)) = ix1 q := funext fun a => match a with
    | ⟨0, _⟩ => rfl
  simp only [val_main_v30_apply, el, er, eb]

end Cert.ReferenceIdeal.RefValue

end
-- ==== Proof.KernelBody.lean ====
/-
  The kernel body's arithmetic, read at one entry of its 5000 × 128 output block.

  The body loads a block of node rows `xb`, the matching block of aggregate rows `ab`, the two 128 × 128 weight halves
  `ws` (self) and `wn` (neighbour), already transposed, and the bias row; it forms `xb · ws` and `ab · wn` on the
  matrix unit, each into a zero accumulator, adds them, and adds the bias row broadcast down the block. On the extended
  reals the narrowing of the operands to bf16 is the identity, a product into a zero accumulator is the plain sum over
  the contracted index, so entry `(p, q)` is

      (∑ k < 128, xb[p, k] · ws[k, q]  +  ∑ k < 128, ab[p, k] · wn[k, q])  +  bias[0, q].
-/
import proofs.«107154_j16492674417005_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-! ## The product's operand indices: rows of the left operand, columns of the right, one contracted axis -/

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at entry `(p, q)`: row `p` of the left operand against column `q` of the
    right. -/
theorem product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (rhs_contr _ _).trans hk
    | ⟨1, _⟩ => exact rhs_col _ _)
  rw [el, er]

/-- The bias row broadcast down the block: entry `(p, q)` is the row's entry `q`. -/
theorem bias_rows_apply (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun d => match d with
    | ⟨0, _⟩ => by show 0 = if (1 : Nat) = 1 then 0 else p.val; rw [if_pos rfl]
    | ⟨1, _⟩ => by show q.val = if (128 : Nat) = 1 then 0 else q.val; rw [if_neg (by decide)])

/-- Entry `(p, q)` of what the body stores: the self product plus the neighbour product plus the bias. -/
theorem payload_apply (xb ab : Vec Ideal S5000x128 .f32) (ws wn : Vec Ideal S128x128 .f32) (bias : Vec Ideal S1x128 .f32)
    (p : Fin 5000) (q : Fin 128) :
    k0_pay1 (F := Ideal) xb ab ws wn bias (ix2 p q)
      = (∑ k : Fin 128, xb (ix2 p k) * ws (ix2 k q) + ∑ k : Fin 128, ab (ix2 p k) * wn (ix2 k q)) + bias (ix2 (0 : Fin 1) q) := by
  unfold k0_pay1
  rw [addf_apply, addf_apply, product_apply, product_apply, bias_rows_apply]
  simp only [shapeCast_self]
  rfl

end Cert.KernelIdeal.Body

end
-- ==== Proof.KernelHost.lean ====
/-
  What the kernel's windows find in their arrays when the region is entered.

  Before the one tiled call the program computes, on the host, the aggregate `agg` (value `%28`: a gather of source rows,
  the per-destination weight sums by scatter-add, a clip from below, the normalising quotient, and the weighted
  scatter-add), the two halves of `W` transposed (`%30` from columns 0–127, `%32` from columns 128–255) and the bias as a
  1 × 128 row (`%33`). Read at an index: the self half at `(k, q)` is `W[q, k]`, the neighbour half at `(k, q)` is
  `W[q, 128 + k]`, the bias row at `(0, q)` is `b[q]`. The aggregate is left closed: it is, operation for operation, the
  term the reference computes for its own `%28`, and is named by that term.
-/
import proofs.«107154_j16492674417005_1_alg».proof.Proof.Gen.KernelIdeal.Frame
import proofs.«107154_j16492674417005_1_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

section AnyInstance

variable {F : FTy → Type} [FloatOps F] (m : (ℓ : Loc nD τ sig) → Buf (Elt F) ℓ)

set_option maxRecDepth 8192 in
set_option maxHeartbeats 1000000 in
/-- At any float instance: what the host prefix leaves in `%28` is the reference's term for its `%28`. -/
theorem agg_eq_any (c : Dev nD) :
    V m c main_v28
      = Cert.ReferenceIdeal.Read.val_main_v28 (F := F) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  simp only [TRef.ofBuf, TRef.toBuf, cast_eq]
  rfl

end AnyInstance

variable (m : (ℓ : Loc nD τ sig) → Buf (Elt Ideal) ℓ)

/-! ## The arrays as terms of the arguments -/

/-- The self half of the weight, transposed: columns 0–127 of `W`. -/
theorem selfW_eq (c : Dev nD) :
    (V m c main_v30 : S128x128.Idx → EReal)
      = transpose S128x128 [1, 0] (extractStridedSlice S128x128 ![0, 0] (m ((c : Thread nD τ).loc main_arg3)) slices_S128x256_S128x128_0_0) transposes_S128x128_S128x128_1_0 := by
  dsimp only [V]
  simp only [hostOps0, hostOps0_1, hostOps0_2, List.flatten_cons, List.flatten_nil, List.append_nil, List.cons_append, List.nil_append]
  after_results

/-- The neighbour half of the weight, transposed: columns 128–255 of `W`. -/
theorem nbrW_eq (c : Dev nD) :
    (V m c main_v32 : S128x128.Idx → EReal)
      = transpose S128x128 [1, 0] (extractStridedSlice S128x128 ![0, 128] (m ((c : Thread nD τ).loc main_arg3)) slices_S128x256_S128x128_0_128) transposes_S128x128_S128x128_1_0 := by
  dsimp only [V]
  simp only [hostOps0, hostOps0_1, hostOps0_2, List.flatten_cons, List.flatten_nil, List.append_nil, List.cons_append, List.nil_append]
  after_results

/-- The bias as a 1 × 128 row. -/
theorem biasRow_eq (c : Dev nD) :
    (V m c main_v33 : S1x128.Idx → EReal) = shapeCast S1x128 (m ((c : Thread nD τ).loc main_arg4)) shapeCasts_S128_S1x128 := by
  dsimp only [V]
  simp only [hostOps0, hostOps0_1, hostOps0_2, List.flatten_cons, List.flatten_nil, List.append_nil, List.cons_append, List.nil_append]
  after_results
  rfl

/-- The aggregate the kernel's second window stages is the term the reference computes for its own aggregate, of the
    same three arguments: the two programs' host prefixes are the same operations with the same constants. Compared
    at an arbitrary float instance, where no operation has anything to unfold to: the equation is one of program
    text, not of arithmetic. (The clip is a call of a local function, whose values pass through typed references:
    those transports are identities and are removed first.) -/
theorem agg_eq (c : Dev nD) :
    (V m c main_v28 : S40000x128.Idx → EReal)
      = Cert.ReferenceIdeal.Read.val_main_v28 (F := Ideal) (m ((c : Thread nD τ).loc main_arg0)) (m ((c : Thread nD τ).loc main_arg1)) (m ((c : Thread nD τ).loc main_arg2)) :=
  agg_eq_any m c

/-! ## Read at an index -/

/-- The self half at `(k, q)` is `W[q, k]`. -/
theorem selfW_apply (c : Dev nD) (k q : Fin 128) :
    V m c main_v30 (ix2 k q) = m ((c : Thread nD τ).loc main_arg3) (ix2 q (⟨k.val, Nat.lt_trans k.isLt (by decide)⟩ : Fin 256)) := by
  rw [selfW_eq]
  rw [transpose_apply [1, 0] _ transposes_S128x128_S128x128_1_0 (ix2 k q) (ix2 q k) (fun d => match d with
    | ⟨0, _⟩ => rfl
    | ⟨1, _⟩ => rfl)]
  exact extractStridedSlice_apply ![0, 0] _ slices_S128x256_S128x128_0_0 (ix2 q k) (ix2 q (⟨k.val, Nat.lt_trans k.isLt (by decide)⟩ : Fin 256)) (fun d => match d with
    | ⟨0, _⟩ => by show q.val = 0 + q.val; omega
    | ⟨1, _⟩ => by show k.val = 0 + k.val; omega)

/-- The neighbour half at `(k, q)` is `W[q, 128 + k]`. -/
theorem nbrW_apply (c : Dev nD) (k q : Fin 128) :
    V m c main_v32 (ix2 k q) = m ((c : Thread nD τ).loc main_arg3) (ix2 q (⟨128 + k.val, by have := k.isLt; omega⟩ : Fin 256)) := by
  rw [nbrW_eq]
  rw [transpose_apply [1, 0] _ transposes_S128x128_S128x128_1_0 (ix2 k q) (ix2 q k) (fun d => match d with
    | ⟨0, _⟩ => rfl
    | ⟨1, _⟩ => rfl)]
  exact extractStridedSlice_apply ![0, 128] _ slices_S128x256_S128x128_0_128 (ix2 q k) (ix2 q (⟨128 + k.val, by have := k.isLt; omega⟩ : Fin 256)) (fun d => match d with
    | ⟨0, _⟩ => by show q.val = 0 + q.val; omega
    | ⟨1, _⟩ => by show 128 + k.val = 128 + k.val; rfl)

/-- The bias row at `(0, q)` is `b[q]`. -/
theorem biasRow_apply (c : Dev nD) (q : Fin 128) :
    V m c main_v33 (ix2 (0 : Fin 1) q) = m ((c : Thread nD τ).loc main_arg4) (ix1 q) := by
  rw [biasRow_eq]
  exact shapeCast_apply _ shapeCasts_S128_S1x128 (ix2 (0 : Fin 1) q) (ix1 q) (by
    rw [Shape.rowMajor_val_one, Shape.rowMajor_val_two]
    show q.val = 0 * 128 + q.val
    omega)

end Cert.KernelIdeal.Host

end
-- ==== Proof.KernelValue.lean ====
/-
  From the kernel's eight blocks to its whole output array.

  The tiled call walks eight grid points; point `t` stages rows `5000·t … 5000·t + 4999` of `x` and of the aggregate, the
  two weight halves and the bias row whole, and writes back rows `5000·t … 5000·t + 4999` of the result. So what point `t`
  writes back is block `t` of ONE array — the layer's output function of `x`, the aggregate, `W` and `b` — and since every
  row `r` lies in block `r / 5000`, the eight blocks cover the array: after the run the result array IS that function.
-/
import proofs.«107154_j16492674417005_1_alg».proof.Proof.Gen.KernelIdeal.Value
import proofs.«107154_j16492674417005_1_alg».proof.Proof.KernelBody
import proofs.«107154_j16492674417005_1_alg».proof.Proof.KernelHost
import proofs.«107154_j16492674417005_1_alg».proof.Proof.SageLinear

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The layer's output of this launch's arguments, the aggregate named by the term the host prefix computes. -/
abbrev result (c : Dev nD) : S40000x128.Idx → EReal :=
  Cert.SageLinear.out (m ((c : Thread nD τ).loc main_arg0)) (Cert.ReferenceIdeal.Read.val_main_v28 (F := Ideal) (m ((c : Thread nD τ).loc main_arg0)) (m ((c : Thread nD τ).loc main_arg1)) (m ((c : Thread nD τ).loc main_arg2))) (m ((c : Thread nD τ).loc main_arg3)) (m ((c : Thread nD τ).loc main_arg4))

/-- Where each window's block sits at grid point `t`: the two row-tiled inputs move with the output down the rows, block
    `t` at point `t`; the weights and the bias stay at the origin; nothing moves along the columns. -/
theorem block_places : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 7 ∧ win0_5.index t (1 : Fin 2) = 0 :=
  (by decide +kernel : ∀ t : Fin grid0.N, _)

/-- Every one of the eight row blocks is some point's. -/
theorem block_onto : ∀ q0 : Fin 8, ∃ t : Fin cfg0.N, win0_5.index t = ![q0.val, 0] :=
  (by decide +kernel : ∀ q0 : Fin 8, ∃ t : Fin grid0.N, win0_5.index t = ![q0.val, 0])

/-! ## The input blocks at a point, over their literal shapes -/

abbrev xRows (c : Dev nD) (t : Fin cfg0.N) : Vec Ideal S5000x128 .f32 := iblk m c 0 t
abbrev aggRows (c : Dev nD) (t : Fin cfg0.N) : Vec Ideal S5000x128 .f32 := iblk m c 1 t
abbrev selfW (c : Dev nD) (t : Fin cfg0.N) : Vec Ideal S128x128 .f32 := iblk m c 2 t
abbrev nbrW (c : Dev nD) (t : Fin cfg0.N) : Vec Ideal S128x128 .f32 := iblk m c 3 t
abbrev biasRow (c : Dev nD) (t : Fin cfg0.N) : Vec Ideal S1x128 .f32 := iblk m c 4 t

/-! ## Reading a block of ANY array: the row tiles pick rows `5000·t + p`, the resident windows are the whole array -/

/-- Window 0's block at point `t`, of any array: row `p` of the block is row `R` of the array, `R` being `p` rows into
    block `t`. -/
theorem rows0_read (X : S40000x128.Idx → EReal) (t : Fin cfg0.N) (p : Fin 5000) (k : Fin 128) (R : Fin 40000)
    (hR : R.val = win0_5.index t (0 : Fin 2) * 5000 + p.val) :
    ((cfg0.win 0).blk t).view.read (Elt Ideal) X (ix2 p k) = X (ix2 R k) := by
  obtain ⟨e00, e01, -⟩ := block_places t
  rw [View.read_apply]
  refine congrArg X (funext fun a => Fin.ext ?_)
  match a with
  | ⟨0, _⟩ => show win0_0.index t (0 : Fin 2) * 5000 + 1 * p.val = R.val; omega
  | ⟨1, _⟩ => show win0_0.index t (1 : Fin 2) * 128 + 1 * k.val = k.val; omega

/-- The same for window 1. -/
theorem rows1_read (X : S40000x128.Idx → EReal) (t : Fin cfg0.N) (p : Fin 5000) (k : Fin 128) (R : Fin 40000)
    (hR : R.val = win0_5.index t (0 : Fin 2) * 5000 + p.val) :
    ((cfg0.win 1).blk t).view.read (Elt Ideal) X (ix2 p k) = X (ix2 R k) := by
  obtain ⟨-, -, e10, e11, -⟩ := block_places t
  rw [View.read_apply]
  refine congrArg X (funext fun a => Fin.ext ?_)
  match a with
  | ⟨0, _⟩ => show win0_1.index t (0 : Fin 2) * 5000 + 1 * p.val = R.val; omega
  | ⟨1, _⟩ => show win0_1.index t (1 : Fin 2) * 128 + 1 * k.val = k.val; omega

/-- Window 2's block is its whole 128 × 128 array, at every point. -/
theorem whole2_read (X : S128x128.Idx → EReal) (t : Fin cfg0.N) (k q : Fin 128) :
    ((cfg0.win 2).blk t).view.read (Elt Ideal) X (ix2 k q) = X (ix2 k q) := by
  obtain ⟨-, -, -, -, e20, e21, -⟩ := block_places t
  rw [View.read_apply]
  refine congrArg X (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is window 3's. -/
theorem whole3_read (X : S128x128.Idx → EReal) (t : Fin cfg0.N) (k q : Fin 128) :
    ((cfg0.win 3).blk t).view.read (Elt Ideal) X (ix2 k q) = X (ix2 k q) := by
  obtain ⟨-, -, -, -, -, -, e30, e31, -⟩ := block_places t
  rw [View.read_apply]
  refine congrArg X (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- And window 4's, the 1 × 128 row. -/
theorem whole4_read (X : S1x128.Idx → EReal) (t : Fin cfg0.N) (q : Fin 128) :
    ((cfg0.win 4).blk t).view.read (Elt Ideal) X (ix2 (0 : Fin 1) q) = X (ix2 (0 : Fin 1) q) := by
  obtain ⟨-, -, -, -, -, -, -, -, e40, e41, -⟩ := block_places t
  rw [View.read_apply]
  refine congrArg X (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## The staged blocks are those reads of the arrays the region finds -/

theorem xRows_eq (c : Dev nD) (t : Fin cfg0.N) :
    xRows m c t = ((cfg0.win 0).blk t).view.read (Elt Ideal) (m ((c : Thread nD τ).loc main_arg0)) := by
  show ((cfg0.win 0).blk t).view.read (Elt Ideal) (V m c main_arg0) = _
  rw [V_main_arg0]

theorem aggRows_eq (c : Dev nD) (t : Fin cfg0.N) :
    aggRows m c t = ((cfg0.win 1).blk t).view.read (Elt Ideal) (Cert.ReferenceIdeal.Read.val_main_v28 (F := Ideal) (m ((c : Thread nD τ).loc main_arg0)) (m ((c : Thread nD τ).loc main_arg1)) (m ((c : Thread nD τ).loc main_arg2))) := by
  show ((cfg0.win 1).blk t).view.read (Elt Ideal) (V m c main_v28) = _
  rw [Host.agg_eq]

theorem selfW_eq (c : Dev nD) (t : Fin cfg0.N) :
    selfW m c t = ((cfg0.win 2).blk t).view.read (Elt Ideal) (V m c main_v30) := rfl

theorem nbrW_eq (c : Dev nD) (t : Fin cfg0.N) :
    nbrW m c t = ((cfg0.win 3).blk t).view.read (Elt Ideal) (V m c main_v32) := rfl

theorem biasRow_eq (c : Dev nD) (t : Fin cfg0.N) :
    biasRow m c t = ((cfg0.win 4).blk t).view.read (Elt Ideal) (V m c main_v33) := rfl

/-- Row `p` of the staged block of `x` is row `R` of `x`, when `R` is `p` rows into the point's block. -/
theorem xRows_apply (c : Dev nD) (t : Fin cfg0.N) (p : Fin 5000) (k : Fin 128) (R : Fin 40000)
    (hR : R.val = win0_5.index t (0 : Fin 2) * 5000 + p.val) :
    xRows m c t (ix2 p k) = (m ((c : Thread nD τ).loc main_arg0)) (ix2 R k) := by
  rw [xRows_eq m c t]
  exact rows0_read _ t p k R hR

/-- The same for the staged block of the aggregate. -/
theorem aggRows_apply (c : Dev nD) (t : Fin cfg0.N) (p : Fin 5000) (k : Fin 128) (R : Fin 40000)
    (hR : R.val = win0_5.index t (0 : Fin 2) * 5000 + p.val) :
    aggRows m c t (ix2 p k) = (Cert.ReferenceIdeal.Read.val_main_v28 (F := Ideal) (m ((c : Thread nD τ).loc main_arg0)) (m ((c : Thread nD τ).loc main_arg1)) (m ((c : Thread nD τ).loc main_arg2))) (ix2 R k) := by
  rw [aggRows_eq m c t]
  exact rows1_read _ t p k R hR

/-- The staged self half of the weight is the whole transposed half: entry `(k, q)` is `W[q, k]`. -/
theorem selfW_apply (c : Dev nD) (t : Fin cfg0.N) (k q : Fin 128) :
    selfW m c t (ix2 k q) = (m ((c : Thread nD τ).loc main_arg3)) (ix2 q (⟨k.val, Nat.lt_trans k.isLt (by decide)⟩ : Fin 256)) := by
  rw [selfW_eq m c t, whole2_read _ t k q]
  exact Host.selfW_apply m c k q

/-- The staged neighbour half: entry `(k, q)` is `W[q, 128 + k]`. -/
theorem nbrW_apply (c : Dev nD) (t : Fin cfg0.N) (k q : Fin 128) :
    nbrW m c t (ix2 k q) = (m ((c : Thread nD τ).loc main_arg3)) (ix2 q (⟨128 + k.val, by have := k.isLt; omega⟩ : Fin 256)) := by
  rw [nbrW_eq m c t, whole3_read _ t k q]
  exact Host.nbrW_apply m c k q

/-- The staged bias row: entry `(0, q)` is `b[q]`. -/
theorem biasRow_apply (c : Dev nD) (t : Fin cfg0.N) (q : Fin 128) :
    biasRow m c t (ix2 (0 : Fin 1) q) = (m ((c : Thread nD τ).loc main_arg4)) (ix1 q) := by
  rw [biasRow_eq m c t, whole4_read _ t q]
  exact Host.biasRow_apply m c q

/-! ## What a point writes back is its block of the result -/

/-- The body's stored value at point `t`, entry `(p, q)`, is the result's entry `(R, q)` for the row `R` that is `p` rows
    into the point's block. -/
theorem stored_apply (c : Dev nD) (t : Fin cfg0.N) (p : Fin 5000) (q : Fin 128) (R : Fin 40000)
    (hR : R.val = win0_5.index t (0 : Fin 2) * 5000 + p.val) :
    k0_pay1 (F := Ideal) (xRows m c t) (aggRows m c t) (selfW m c t) (nbrW m c t) (biasRow m c t) (ix2 p q)
      = Cert.SageLinear.out (m ((c : Thread nD τ).loc main_arg0)) (Cert.ReferenceIdeal.Read.val_main_v28 (F := Ideal) (m ((c : Thread nD τ).loc main_arg0)) (m ((c : Thread nD τ).loc main_arg1)) (m ((c : Thread nD τ).loc main_arg2))) (m ((c : Thread nD τ).loc main_arg3)) (m ((c : Thread nD τ).loc main_arg4)) (ix2 R q) := by
  refine (Body.payload_apply (xRows m c t) (aggRows m c t) (selfW m c t) (nbrW m c t) (biasRow m c t) p q).trans ?_
  rw [Cert.SageLinear.out_apply]
  unfold Cert.SageLinear.entry
  rw [biasRow_apply m c t q]
  refine congrArg₂ (· + ·) (congrArg₂ (· + ·) (Finset.sum_congr rfl fun k _ => ?_) (Finset.sum_congr rfl fun k _ => ?_)) rfl
  · rw [xRows_apply m c t p k R hR, selfW_apply m c t k q]
  · rw [aggRows_apply m c t p k R hR, nbrW_apply m c t k q]

set_option maxHeartbeats 1000000 in
/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S5000x128) origin, View.ld_unit_zero (S := S128x128) origin, View.ld_unit_zero (S := S1x128) origin]
  obtain ⟨-, -, -, -, -, -, -, -, -, -, e5le, e51⟩ := block_places t
  funext j
  rw [View.read_apply]
  have hj0 : (j 0).val < 5000 := (j 0).isLt
  have hj1 : (j 1).val < 128 := (j 1).isLt
  -- the block index the write-back reads the staged value at is `j`, coordinate by coordinate
  have hy : (cfg0.win 5).xinj (grid0.coords t) j = ix2 (⟨(j 0).val, hj0⟩ : Fin 5000) (⟨(j 1).val, hj1⟩ : Fin 128) :=
    funext fun a => match a with
      | ⟨0, _⟩ => rfl
      | ⟨1, _⟩ => rfl
  refine Eq.trans (congrArg (k0_pay1 (F := Ideal) (xRows m c t) (aggRows m c t) (selfW m c t) (nbrW m c t) (biasRow m c t)) hy) ?_
  refine (stored_apply m c t ⟨(j 0).val, hj0⟩ ⟨(j 1).val, hj1⟩ ⟨win0_5.index t (0 : Fin 2) * 5000 + (j 0).val, by omega⟩ rfl).trans ?_
  refine congrArg (result m c) (funext fun a => Fin.ext ?_)
  match a with
  | ⟨0, _⟩ => show win0_5.index t (0 : Fin 2) * 5000 + (j 0).val = win0_5.index t (0 : Fin 2) * 5000 + 1 * (j 0).val; omega
  | ⟨1, _⟩ => show (j 1).val = win0_5.index t (1 : Fin 2) * 128 + 1 * (j 1).val; omega

/-! ## The blocks cover the array -/

/-- An index of the array is in point `t`'s block iff each coordinate is in the block's range on its axis. -/
theorem mem_block (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

/-- Row `r` lies in block `r / 5000`: every index is in some point's block. -/
theorem covered (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  obtain ⟨t, ht⟩ := block_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the run is the layer's output of the arguments. -/
theorem final (c : Dev nD) : (dats m 0 c).arrAt 5 cfg0.N = result m c :=
  (dats m 0 c).arrAt_eq_of_cover 5 (result m c) (fun t _ => flushed_eq m c t) covered

/-- The kernel's run, with its result array named as that function and the arguments unchanged. -/
theorem run : θ_run defs (onTc (τ := τ) (main (F := Ideal))) ⟨m, fun _ => 0, ρ⟩ fun r => ∀ c : Dev nD,
      r.2.mem ((c : Thread nD τ).loc main_v34) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.lean ====
/-
  A weighted GraphSAGE layer: the tiled kernel and the plain reference compute the same array over the extended reals.

  Both programs first form, on the host and by the very same operations, the aggregate `agg`: each edge's weight
  divided by the (clipped) total weight arriving at its destination, times the source node's features, summed into the
  destination's row. The reference then joins `[x | agg]` into a 40000 × 256 array, contracts it against `Wᵀ` in one
  product and adds the bias. The kernel instead splits `W` into its self half (columns 0–127) and its neighbour half
  (columns 128–255), and in eight row tiles of 5000 computes `x·W_selfᵀ + agg·W_nbrᵀ + b`, the operands narrowed to
  bf16 on the way into the matrix unit. Over the extended reals the narrowing is the identity and a product into a zero
  accumulator is a plain sum, so entry `(r, q)` of the kernel's result is

      (∑ k < 128, x[r, k]·W[q, k] + ∑ k < 128, agg[r, k]·W[q, 128 + k]) + b[q],

  and the reference's is `∑ k < 256, [x | agg][r, k]·W[q, k] + b[q]`. These are equal because a sum over 256 indices is
  the sum over its first 128 plus the sum over its last 128; nothing is distributed or cancelled, so no finiteness of
  the inputs is used, and the precondition is never opened.

  The pieces: the output function and the sum law (SageLinear); the reference's last six operations read at an index
  (RefValue); the kernel body's arithmetic at an entry (KernelBody); what the kernel's windows find in their arrays, the
  aggregate named by the reference's own term for it (KernelHost); the eight written-back blocks covering the result
  array (KernelValue). The three frames are the generated runs; the idealization rewrote nothing, so its claim is
  trivial.
-/
import proofs.«107154_j16492674417005_1_alg».proof.Defs
import proofs.«107154_j16492674417005_1_alg».proof.Proof.Gen.Kernel
import proofs.«107154_j16492674417005_1_alg».proof.Proof.Gen.Kernel.Skeleton
import proofs.«107154_j16492674417005_1_alg».proof.Proof.Gen.Kernel.Launch
import proofs.«107154_j16492674417005_1_alg».proof.Proof.Gen.Kernel.Points
import proofs.«107154_j16492674417005_1_alg».proof.Proof.Gen.Kernel.Frame
import proofs.«107154_j16492674417005_1_alg».proof.Proof.Gen.KernelIdeal
import proofs.«107154_j16492674417005_1_alg».proof.Proof.Gen.KernelIdeal.Skeleton
import proofs.«107154_j16492674417005_1_alg».proof.Proof.Gen.KernelIdeal.Launch
import proofs.«107154_j16492674417005_1_alg».proof.Proof.Gen.KernelIdeal.Points
import proofs.«107154_j16492674417005_1_alg».proof.Proof.Gen.KernelIdeal.Frame
import proofs.«107154_j16492674417005_1_alg».proof.Proof.Gen.KernelIdeal.Value
import proofs.«107154_j16492674417005_1_alg».proof.Proof.Gen.ReferenceIdeal
import proofs.«107154_j16492674417005_1_alg».proof.Proof.Gen.ReferenceIdeal.Run
import proofs.«107154_j16492674417005_1_alg».proof.Proof.Gen.ReferenceIdeal.Read
import proofs.«107154_j16492674417005_1_alg».proof.Proof.Gen.Pre_finite_inputs
import proofs.«107154_j16492674417005_1_alg».proof.Proof.SageLinear
import proofs.«107154_j16492674417005_1_alg».proof.Proof.RefValue
import proofs.«107154_j16492674417005_1_alg».proof.Proof.KernelBody
import proofs.«107154_j16492674417005_1_alg».proof.Proof.KernelHost
import proofs.«107154_j16492674417005_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the five arguments, both programs end with the layer's output of those arguments: the
    kernel by its eight blocks, the reference by the sum law. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
